-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x128 : Shape := ⟨2, ![128, 128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x10000 .f32) (main_arg1 : FVec F S10000x128 .f32) (main_arg2 : FVec F S128x128 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x128 : Shape := ⟨2, ![128, 128]⟩
abbrev S400x10000 : Shape := ⟨2, ![400, 10000]⟩
abbrev S400x128 : Shape := ⟨2, ![400, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S400x128, .f32⟩
  | .local _ .vmem, ⟨5, _⟩ => ⟨S400x128, .f32⟩
  | .local _ .vmem, ⟨6, _⟩ => ⟨S10000x128, .bf16⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg1) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.GcnLayer.lean ====
/-
  A graph-convolution layer's value, and the law that lets the feature transform be applied first.

  With `A` the [10000, 10000] propagation matrix, `X` the [10000, 128] node features and `W` the [128, 128]
  weights, the layer is `A · X · W`. Read as `A · (X · W)` its entry at (node `r`, feature `c`) is
  `∑ k, A r k · (∑ l, X k l · W l c)`; read as `(A · X) · W` it is `∑ l, (∑ k, A r k · X k l) · W l c`.
  On the extended reals a product does not distribute over a sum once an infinity is among the terms, so the two
  readings agree only where every entry is a real number; there they agree by distributing both ways and exchanging
  the two finite sums.
-/
import Idealize.ShloMosaic.PureOps.Ideal
import Idealize.ShloMosaic.PureOps.Ideal.Laws
import Idealize.ShloMosaic.Lib.ValueIdx

noncomputable section

open scoped BigOperators

namespace Cert.GcnLayer

open Idealize.ShloMosaic Idealize.ShloMosaic.ValueIdx

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Reassociation of a triple product over real entries: weighting each `k` by `a k` and summing the transformed
    rows `∑ l, x k l · w l` is transforming the weighted sum of the rows. Both sides are the one double sum
    `∑ k l, a k · x k l · w l`. -/
theorem sum_mul_sum_eq {K L : Type*} [Fintype K] [Fintype L] (a : K → ℝ) (x : K → L → ℝ) (w : L → ℝ) :
    ∑ k, (a k : EReal) * ∑ l, (x k l : EReal) * (w l : EReal)
      = ∑ l, (∑ k, (a k : EReal) * (x k l : EReal)) * (w l : EReal) := by
  simp only [← EReal.coe_mul, ← coe_sum]
  refine congrArg _ ?_
  simp only [Finset.mul_sum, Finset.sum_mul]
  rw [Finset.sum_comm]
  exact Finset.sum_congr rfl fun l _ => Finset.sum_congr rfl fun k _ => by ring

/-- The transformed features `X · W` at (node, output feature). -/
def xw (X : (⟨2, ![10000, 128]⟩ : Shape).Idx → EReal) (W : (⟨2, ![128, 128]⟩ : Shape).Idx → EReal) :
    (⟨2, ![10000, 128]⟩ : Shape).Idx → EReal :=
  fun i => ∑ l : Fin 128, X (ix2 (i 0) l) * W (ix2 l (i 1))

/-- The layer read as `A · (X · W)`: row `r` of `A` against column `c` of the transformed features. -/
def propagate (A : (⟨2, ![10000, 10000]⟩ : Shape).Idx → EReal) (X : (⟨2, ![10000, 128]⟩ : Shape).Idx → EReal)
    (W : (⟨2, ![128, 128]⟩ : Shape).Idx → EReal) : (⟨2, ![10000, 128]⟩ : Shape).Idx → EReal :=
  fun i => ∑ k : Fin 10000, A (ix2 (i 0) k) * xw X W (ix2 k (i 1))

/-- The layer read as `(A · X) · W`: row `r` of the aggregated features `A · X` against column `c` of `W`. -/
def aggregateThenTransform (A : (⟨2, ![10000, 10000]⟩ : Shape).Idx → EReal)
    (X : (⟨2, ![10000, 128]⟩ : Shape).Idx → EReal) (W : (⟨2, ![128, 128]⟩ : Shape).Idx → EReal) :
    (⟨2, ![10000, 128]⟩ : Shape).Idx → EReal :=
  fun i => ∑ l : Fin 128, (∑ k : Fin 10000, A (ix2 (i 0) k) * X (ix2 k l)) * W (ix2 l (i 1))

/-- Where every entry of the three arrays is a real number the two readings of the layer are one function. -/
theorem propagate_eq_aggregateThenTransform (A : (⟨2, ![10000, 10000]⟩ : Shape).Idx → EReal)
    (X : (⟨2, ![10000, 128]⟩ : Shape).Idx → EReal) (W : (⟨2, ![128, 128]⟩ : Shape).Idx → EReal)
    (hA : ∀ i, ∃ r : ℝ, A i = (r : EReal)) (hX : ∀ i, ∃ r : ℝ, X i = (r : EReal))
    (hW : ∀ i, ∃ r : ℝ, W i = (r : EReal)) :
    propagate A X W = aggregateThenTransform A X W := by
  choose a ha using hA
  choose x hx using hX
  choose w hw using hW
  funext i
  unfold propagate xw aggregateThenTransform
  simp only [ha, hx, hw]
  exact sum_mul_sum_eq (fun k : Fin 10000 => a (ix2 (i 0) k)) (fun k l => x (ix2 k l)) (fun l : Fin 128 => w (ix2 l (i 1)))

end Cert.GcnLayer

end
-- ==== Proof.FiniteInputs.lean ====
/-
  The precondition read back: every entry of the three inputs is a real number.

  The precondition is the conjunction of three tests, one per input, each asking that every entry's absolute value lie
  strictly below `+∞`. On the extended reals `|x| = max x (-x)`, which is `+∞` at both infinities, so the test singles out
  exactly the entries that are real numbers.
-/
import proofs.«101389_g52682068853352_cont_sun_m_837_6_alg».proof.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Idealize.ShloMosaic.ValueIdx
open Cert.Pre_finite_inputs

variable [Cert.Pre_finite_inputs.Facts]
open Cert.Pre_finite_inputs.Facts

instance : Subsingleton S_.Idx := ⟨fun a b => funext fun d => d.elim0⟩

/-- The word the tests compare against denotes `+∞`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry passing the test is a real number. -/
theorem real_of_test (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- Under the precondition every entry of `A`, of `X` and of `W` is a real number. -/
theorem all_real (A : FVec Ideal S10000x10000 .f32) (X : FVec Ideal S10000x128 .f32) (W : FVec Ideal S128x128 .f32)
    (h : fn (F := Ideal) A X W = fun _ => 1#1) :
    (∀ i, ∃ r : ℝ, A i = (r : EReal)) ∧ (∀ i, ∃ r : ℝ, X i = (r : EReal)) ∧ (∀ i, ∃ r : ℝ, W i = (r : EReal)) := by
  have h0 := congrFun h ix0
  dsimp only [fn] at h0
  change IntOp.andi (IntOp.andi _ _) _ = 1#1 at h0
  obtain ⟨h12, h3⟩ := IntOp.andi_eq_one.mp h0
  obtain ⟨h1, h2⟩ := IntOp.andi_eq_one.mp h12
  refine ⟨fun i => ?_, fun i => ?_, fun i => ?_⟩
  · exact real_of_test _ (Host.reduce_andi_all _ _ reducesTo_S10000x10000_S_d0_1 h_S_ ix0 h1 i)
  · exact real_of_test _ (Host.reduce_andi_all _ _ reducesTo_S10000x128_S_d0_1 h_S_ ix0 h2 i)
  · exact real_of_test _ (Host.reduce_andi_all _ _ reducesTo_S128x128_S_d0_1 h_S_ ix0 h3 i)

end Cert.Pre_finite_inputs.Finite

end
-- ==== Proof.ReferenceLayer.lean ====
/-
  The reference computes the layer as `(A · X) · W`: its first product aggregates the node features over each node's
  row of `A`, its second transforms the aggregate by `W`. Entry (r, c) of the result is therefore
  `∑ l, (∑ k, A r k · X k l) · W l c`, the specification's second reading.
-/
import proofs.«101389_g52682068853352_cont_sun_m_837_6_alg».proof.Proof.Gen.ReferenceIdeal.Read
import proofs.«101389_g52682068853352_cont_sun_m_837_6_alg».proof.Proof.GcnLayer

noncomputable section

namespace Cert.ReferenceIdeal.LayerValue

open Cert.ReferenceIdeal Cert.ReferenceIdeal.Read Idealize.ShloMosaic Idealize.ShloMosaic.ValueIdx

/-- Row `r` of `A` at column `k`: the left factor of the inner product. -/
theorem left_inner (i : S10000x128.Idx) (l : Fin 128) (k : Fin 10000) :
    lidx_main_v0 (lidx_main_v1 i l) k = ix2 (i 0) k :=
  funext fun a => Fin.ext (by match a with | ⟨0, _⟩ => rfl | ⟨1, _⟩ => rfl)

/-- Row `k` of `X` at feature `l`: the right factor of the inner product. -/
theorem right_inner (i : S10000x128.Idx) (l : Fin 128) (k : Fin 10000) :
    ridx_main_v0 (lidx_main_v1 i l) k = ix2 k l :=
  funext fun a => Fin.ext (by match a with | ⟨0, _⟩ => rfl | ⟨1, _⟩ => rfl)

/-- Row `l` of `W` at the output feature: the right factor of the outer product. -/
theorem right_outer (i : S10000x128.Idx) (l : Fin 128) : ridx_main_v1 i l = ix2 l (i 1) :=
  funext fun a => Fin.ext (by match a with | ⟨0, _⟩ => rfl | ⟨1, _⟩ => rfl)

/-- The reference's result array is the layer read as aggregate-then-transform. -/
theorem result_eq (A : (⟨S10000x10000, .f32⟩ : BufTy).Contents (Elt Ideal)) (X : (⟨S10000x128, .f32⟩ : BufTy).Contents (Elt Ideal))
    (W : (⟨S128x128, .f32⟩ : BufTy).Contents (Elt Ideal)) :
    val_main_v1 (F := Ideal) A X W = Cert.GcnLayer.aggregateThenTransform A X W := by
  funext i
  rw [val_main_v1_apply]
  unfold Cert.GcnLayer.aggregateThenTransform
  refine Finset.sum_congr rfl fun l _ => ?_
  rw [val_main_v0_apply, right_outer]
  simp only [left_inner, right_inner]
  rfl

end Cert.ReferenceIdeal.LayerValue

end
-- ==== Proof.BodyValue.lean ====
/-
  What one run of the kernel body leaves behind, as values of the blocks it was handed.

  At the grid's first point the body forms the transformed features from the whole `X` and `W` blocks, stores them
  (narrowed) in the scratch it keeps between points, reads them back, and multiplies its 400 rows of `A` by them.
  At every later point it stores nothing in the scratch and multiplies its rows of `A` by what the scratch already
  holds. Each store covers its buffer whole, so what a buffer ends holding is the one stored value.
-/
import proofs.«101389_g52682068853352_cont_sun_m_837_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- First point: the scratch ends holding the transformed features of the `X` and `W` blocks. -/
theorem scratch_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S10000x128 .f32) (x1 : Vec F S128x128 .f32) (x2 : Vec F S400x10000 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S10000x128) hz,
    View.ld_unit_zero (S := S128x128) hz, View.ld_unit_zero (S := S400x10000) hz]

/-- First point: the output block ends holding its rows of `A` against the transformed features just stored. -/
theorem out_first (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : cond0_0 i) (x0 : Vec F S10000x128 .f32) (x1 : Vec F S128x128 .f32) (x2 : Vec F S400x10000 .f32) :
    out0_A_3 c i a1 h1 a2 h2 a3 h3 a4 h4 a5 h5 hc x0 x1 x2 = k0_pay2 x2 (k0_pay1 x0 x1) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S10000x128) hz,
    View.ld_unit_zero (S := S128x128) hz, View.ld_unit_zero (S := S400x10000) hz, View.readCov_unit_zero (S := S10000x128) _ hz]

/-- Later points: the output block ends holding its rows of `A` against what the scratch held on entry. -/
theorem out_later (c : Dev nD) (i : grid0.Coords) (a1 : Memref sig .tc .vmem S10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S400x128 .f32) (h4 : a4.IsWhole) (a5 : Memref sig .tc .vmem S10000x128 .bf16) (h5 : a5.IsWhole)
    (hc : ¬cond0_0 i) (x0 : Vec F S10000x128 .f32) (x1 : Vec F S128x128 .f32) (x2 : Vec F S400x10000 .f32)
    (xs : Vec F S10000x128 .bf16) :
    out0_B_3 c i a1 h1 a2 h2 a3 h3 a4 h4 a5 h5 hc x0 x1 x2 xs = k0_pay2 x2 xs := by
  unfold out0_B_3
  rw [View.read_writes_eq_canon _ _ _ (cover0_B_3 c i a1 h1 a2 h2 a3 h3 a4 h4 a5 h5 hc x0 x1 x2 xs)]
  unfold kernelRun0_B
  dsimp only
  sl_unfold_words
  rw [View.canon_unit_zero hz]
  simp only [View.readAt_eq_ld, h1.read_unread, h2.read_unread, h3.read_unread, h5.read_unread, View.ld_unit_zero (S := S10000x128) hz,
    View.ld_unit_zero (S := S128x128) hz, View.ld_unit_zero (S := S400x10000) hz]

end Cert.KernelIdeal.BodyValue

end
-- ==== Proof.PointValue.lean ====
/-
  What the kernel's buffers hold after each grid point.

  The scratch is stored once, at the first point, and never again: after every point it holds the transformed features
  formed there from the `X` and `W` blocks. The output's staging buffer after point `n` holds that point's 400 rows of
  `A` multiplied by the scratch. Both facts go by induction on the point: the first point stores, every later point
  hands the scratch on unchanged.
-/
import proofs.«101389_g52682068853352_cont_sun_m_837_6_alg».proof.Proof.BodyValue

noncomputable section

open Idealize.ShloMosaic Idealize.ShloMosaic.TcCoe Idealize.SL.Sem

namespace Cert.KernelIdeal.PointValue

open Cert.KernelIdeal Cert.KernelIdeal.Gen Cert.KernelIdeal.BodyValue

variable {F : FTy → Type} [FloatOps F]
variable (m : (ℓ : Loc nD τ sig) → Buf (Elt F) ℓ)

/-- The grid's first point, where the scratch is stored. -/
abbrev first : Fin cfg0.N := ⟨0, by rw [show cfg0.N = 25 from N_0]; decide⟩

/-- The node-feature block at a point (the whole of `X`). -/
abbrev xBlock (c : Dev nD) (t : Fin cfg0.N) : Vec F S10000x128 .f32 := iblk m c 0 t
/-- The weight block at a point (the whole of `W`). -/
abbrev wBlock (c : Dev nD) (t : Fin cfg0.N) : Vec F S128x128 .f32 := iblk m c 1 t
/-- The 400 rows of `A` a point is handed. -/
abbrev aBlock (c : Dev nD) (t : Fin cfg0.N) : Vec F S400x10000 .f32 := iblk m c 2 t

/-- The transformed features as the first point stores them in the scratch. -/
def stored (c : Dev nD) : Vec F S10000x128 .bf16 := k0_pay1 (xBlock m c first) (wBlock m c first)

/-- After point `n`: the output buffer at that point's rows of `A` against the stored features, the scratch at the
    stored features. -/
theorem outsAt_eq (c : Dev nD) : ∀ (n : ℕ) (h : n < cfg0.N),
    outsAt0 m c n h = (k0_pay2 (aBlock m c ⟨n, h⟩) (stored m c), stored m c)
  | 0, h => by
    rw [outsAt0_A m c ⟨0, h⟩ rfl, out_first, scratch_first]
    rfl
  | n + 1, h => by
    have hN : cfg0.N = 25 := N_0
    have hB : ¬(⟨n + 1, h⟩ : Fin cfg0.N).val % 25 = 0 := by dsimp only; omega
    rw [outsAt0_B m c ⟨n + 1, h⟩ hB, out_later]
    unfold sout0_B_0
    show (k0_pay2 _ (outsAt0 m c n _).2, (outsAt0 m c n _).2) = _
    rw [outsAt_eq c n]

end Cert.KernelIdeal.PointValue

end
-- ==== Proof.PayloadValue.lean ====
/-
  The body's two stored values read at one entry, over the extended reals.

  Narrowing to bf16 and the shape-preserving cast change nothing there, and a matrix product into a zero accumulator
  is the plain sum over the contracted axis. So the stored features at (node `k`, feature `c`) are
  `∑ l, X k l · W l c`, and the output block at (row `r`, feature `c`) is `∑ k, a r k · s k c` of the block `a` of
  `A` and the scratch `s`.
-/
import proofs.«101389_g52682068853352_cont_sun_m_837_6_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem

namespace Cert.KernelIdeal.PayloadValue

open Cert.KernelIdeal Cert.KernelIdeal.Gen Idealize.ShloMosaic.ValueIdx

/-! ## The feature transform `X · W`: which entries of the operands meet at contraction index `l` -/

theorem xw_lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem xw_lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem xw_rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem xw_rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The stored features at (node `r`, feature `c`): row `r` of the node features against column `c` of the weights. -/
theorem transformed_apply (x : Vec Ideal S10000x128 .f32) (w : Vec Ideal S128x128 .f32) (r : Fin 10000) (c : Fin 128) :
    k0_pay1 (F := Ideal) x w (ix2 r c) = ∑ l : Fin 128, x (ix2 r l) * w (ix2 l c) := by
  generalize hi : (ix2 r c : S10000x128.Idx) = i
  have hi0 : (i 0).val = r.val := by rw [← hi]
  have hi1 : (i 1).val = c.val := by rw [← hi]
  unfold k0_pay1
  rw [shapeCast_self]
  show matmul (F := Ideal) (φ₁ := .f32) (φ₂ := .f32) dot_S10000x128_S128x128_S10000x128_1_0_0_1_n_n none x w (constant S10000x128 .f32 0x00000000#32) i = _
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx i ((contrEquiv1 dot_S10000x128_S128x128_S10000x128_1_0_0_1_n_n 128 rfl rfl).symm k) = ix2 r k := funext fun a => Fin.ext (by
    match a with
    | ⟨0, _⟩ => exact (xw_lhs_0 _ _).trans hi0
    | ⟨1, _⟩ => exact (xw_lhs_1 _ _).trans hk)
  have er : dot_S10000x128_S128x128_S10000x128_1_0_0_1_n_n.rhsIdx i ((contrEquiv1 dot_S10000x128_S128x128_S10000x128_1_0_0_1_n_n 128 rfl rfl).symm k) = ix2 k c := funext fun a => Fin.ext (by
    match a with
    | ⟨0, _⟩ => exact (xw_rhs_0 _ _).trans hk
    | ⟨1, _⟩ => exact (xw_rhs_1 _ _).trans hi1)
  rw [el, er]

/-! ## The propagation `A-block · scratch`: which entries meet at contraction index `k` -/

theorem prop_lhs_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem prop_lhs_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem prop_rhs_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem prop_rhs_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The output block at (row `r`, feature `c`): row `r` of the block of `A` against column `c` of the scratch. -/
theorem propagated_apply (a : Vec Ideal S400x10000 .f32) (s : Vec Ideal S10000x128 .bf16) (r : Fin 400) (c : Fin 128) :
    k0_pay2 (F := Ideal) a s (ix2 r c) = ∑ k : Fin 10000, a (ix2 r k) * s (ix2 k c) := by
  generalize hi : (ix2 r c : S400x128.Idx) = i
  have hi0 : (i 0).val = r.val := by rw [← hi]
  have hi1 : (i 1).val = c.val := by rw [← hi]
  unfold k0_pay2
  show matmul (F := Ideal) (φ₁ := .bf16) (φ₂ := .bf16) dot_S400x10000_S10000x128_S400x128_1_0_0_1_n_n none (truncf (F := Ideal) (φ := .f32) .bf16 a bitsLt_bf16_f32) s (constant S400x128 .f32 0x00000000#32) i = _
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx i ((contrEquiv1 dot_S400x10000_S10000x128_S400x128_1_0_0_1_n_n 10000 rfl rfl).symm k) = ix2 r k := funext fun b => Fin.ext (by
    match b with
    | ⟨0, _⟩ => exact (prop_lhs_0 _ _).trans hi0
    | ⟨1, _⟩ => exact (prop_lhs_1 _ _).trans hk)
  have er : dot_S400x10000_S10000x128_S400x128_1_0_0_1_n_n.rhsIdx i ((contrEquiv1 dot_S400x10000_S10000x128_S400x128_1_0_0_1_n_n 10000 rfl rfl).symm k) = ix2 k c := funext fun b => Fin.ext (by
    match b with
    | ⟨0, _⟩ => exact (prop_rhs_0 _ _).trans hk
    | ⟨1, _⟩ => exact (prop_rhs_1 _ _).trans hi1)
  rw [el, er]
  rfl

end Cert.KernelIdeal.PayloadValue

end
-- ==== Proof.KernelLayer.lean ====
/-
  The kernel's result array is the layer read as `A · (X · W)`.

  The node-feature and weight blocks are the whole arrays at every point (their block index never moves), so the
  scratch holds `X · W` entry by entry. Point `t` is handed rows `400·t … 400·t + 399` of `A` and writes back the same
  rows of the result; entry (p, q) of what it writes is `∑ k, A (400·t + p) k · (X · W) k q`, which is the layer's entry
  at row `400·t + p`. The 25 points' row blocks tile the 10000 rows — row `r` lies in the block of point `r / 400` —
  so the whole array ends holding the layer.
-/
import proofs.«101389_g52682068853352_cont_sun_m_837_6_alg».proof.Proof.PointValue
import proofs.«101389_g52682068853352_cont_sun_m_837_6_alg».proof.Proof.PayloadValue
import proofs.«101389_g52682068853352_cont_sun_m_837_6_alg».proof.Proof.GcnLayer
import proofs.«101389_g52682068853352_cont_sun_m_837_6_alg».proof.Proof.Gen.KernelIdeal.Value

noncomputable section

open scoped BigOperators
open Idealize.ShloMosaic Idealize.ShloMosaic.TcCoe Idealize.SL.Sem
open Idealize.ShloMosaic.Pipeline (Dat)

namespace Cert.KernelIdeal.LayerValue

open Cert.KernelIdeal Cert.KernelIdeal.Gen Idealize.ShloMosaic.ValueIdx
open Cert.KernelIdeal.PointValue Cert.KernelIdeal.PayloadValue

variable (m : (ℓ : Loc nD τ sig) → Buf (Elt Ideal) ℓ) (ρ : Dev nD → PrngReg)

/-- The printed index maps over the grid: the `X` and `W` windows stay on block (0, 0); the `A` window and the output
    window are on row block `t`, column block 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 25 := lt_of_lt_of_eq t.isLt (show cfg0.N = 25 from N_0)

/-- The node-feature block is the array `X` itself. -/
theorem xBlock_apply (c : Dev nD) (t : Fin cfg0.N) (k : Fin 10000) (l : Fin 128) :
    xBlock m c t (ix2 k l) = V m c main_arg1 (ix2 k l) := by
  show V m c main_arg1 (((cfg0.win 0).blk t).view.emb (ix2 k l)) = V m c main_arg1 (ix2 k l)
  obtain ⟨e0, e1, -⟩ := idx_facts t
  refine congrArg _ (funext fun a => Fin.ext ?_)
  match a with
  | ⟨0, _⟩ => show win0_0.index t (0 : Fin 2) * 10000 + 1 * k.val = k.val; omega
  | ⟨1, _⟩ => show win0_0.index t (1 : Fin 2) * 128 + 1 * l.val = l.val; omega

/-- The weight block is the array `W` itself. -/
theorem wBlock_apply (c : Dev nD) (t : Fin cfg0.N) (l : Fin 128) (q : Fin 128) :
    wBlock m c t (ix2 l q) = V m c main_arg2 (ix2 l q) := by
  show V m c main_arg2 (((cfg0.win 1).blk t).view.emb (ix2 l q)) = V m c main_arg2 (ix2 l q)
  obtain ⟨-, -, e2, e3, -⟩ := idx_facts t
  refine congrArg _ (funext fun a => Fin.ext ?_)
  match a with
  | ⟨0, _⟩ => show win0_1.index t (0 : Fin 2) * 128 + 1 * l.val = l.val; omega
  | ⟨1, _⟩ => show win0_1.index t (1 : Fin 2) * 128 + 1 * q.val = q.val; omega

/-- Row `p` of point `t`'s block of `A` is row `400·t + p` of `A`. -/
theorem aBlock_apply (c : Dev nD) (t : Fin cfg0.N) (p : Fin 400) (k : Fin 10000) (h : 400 * t.val + p.val < 10000) :
    aBlock m c t (ix2 p k) = V m c main_arg0 (ix2 ⟨400 * t.val + p.val, h⟩ k) := by
  show V m c main_arg0 (((cfg0.win 2).blk t).view.emb (ix2 p k)) = V m c main_arg0 (ix2 ⟨400 * t.val + p.val, h⟩ k)
  obtain ⟨-, -, -, -, e4, e5, -⟩ := idx_facts t
  refine congrArg _ (funext fun a => Fin.ext ?_)
  match a with
  | ⟨0, _⟩ => show win0_2.index t (0 : Fin 2) * 400 + 1 * p.val = 400 * t.val + p.val; omega
  | ⟨1, _⟩ => show win0_2.index t (1 : Fin 2) * 10000 + 1 * k.val = k.val; omega

/-- Entry (p, q) of point `t`'s output block sits at row `400·t + p`, column `q` of the result array. -/
theorem out_emb (t : Fin cfg0.N) (p : Fin 400) (q : Fin 128) (h : 400 * t.val + p.val < 10000) :
    ((cfg0.win 3).blk t).view.emb (ix2 p q) = (ix2 ⟨400 * t.val + p.val, h⟩ q : S10000x128.Idx) := by
  obtain ⟨-, -, -, -, -, -, e6, e7⟩ := idx_facts t
  funext a; apply Fin.ext
  match a with
  | ⟨0, _⟩ => show win0_3.index t (0 : Fin 2) * 400 + 1 * p.val = 400 * t.val + p.val; omega
  | ⟨1, _⟩ => show win0_3.index t (1 : Fin 2) * 128 + 1 * q.val = q.val; omega

/-- The scratch holds the transformed features `X · W`, entry by entry. -/
theorem stored_apply (c : Dev nD) (k : Fin 10000) (q : Fin 128) :
    stored m c (ix2 k q) = Cert.GcnLayer.xw (V m c main_arg1) (V m c main_arg2) (ix2 k q) := by
  unfold stored
  rw [transformed_apply]
  unfold Cert.GcnLayer.xw
  exact Finset.sum_congr rfl fun l _ => by rw [xBlock_apply, wBlock_apply]

/-- What point `t` writes back is its block of the layer's value. -/
theorem flushed_eq (c : Dev nD) (t : Fin cfg0.N) :
    (dats m 0 c).flushed 3 t = ((cfg0.win 3).blk t).view.read (Elt Ideal)
      (Cert.GcnLayer.propagate (V m c main_arg0) (V m c main_arg1) (V m c main_arg2)) := by
  rw [Cert.KernelIdeal.Value.flushed3, outsAt_eq m c t.val t.isLt]
  have ht := point_lt t
  funext j
  obtain ⟨p, q, rfl⟩ : ∃ (p : Fin 400) (q : Fin 128), j = ix2 p q := ⟨j 0, j 1, eq_ix2 j⟩
  have hp : p.val < 400 := p.isLt
  have hrow : 400 * t.val + p.val < 10000 := by omega
  show k0_pay2 (aBlock m c t) (stored m c) (ix2 p q)
    = Cert.GcnLayer.propagate (V m c main_arg0) (V m c main_arg1) (V m c main_arg2) (((cfg0.win 3).blk t).view.emb (ix2 p q))
  rw [propagated_apply, out_emb t p q hrow]
  unfold Cert.GcnLayer.propagate
  exact Finset.sum_congr rfl fun k _ => by rw [aBlock_apply m c t p k hrow, stored_apply]

/-- An index of the result array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- Every row of the result lies in some point's block: row `r` in that of point `r / 400`. -/
theorem cover (i : S10000x128.Idx) :
    ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  refine ⟨⟨(i 0).val / 400, by omega⟩, flush0_3 _, ?_⟩
  rw [mem_blk]
  obtain ⟨-, -, -, -, -, -, e6, e7⟩ := idx_facts ⟨(i 0).val / 400, by omega⟩
  intro a
  match a with
  | ⟨0, _⟩ =>
    show win0_3.index _ (0 : Fin 2) * 400 ≤ (i 0).val ∧ (i 0).val < win0_3.index _ (0 : Fin 2) * 400 + 400
    rw [e6]; dsimp only; omega
  | ⟨1, _⟩ =>
    show win0_3.index _ (1 : Fin 2) * 128 ≤ (i 1).val ∧ (i 1).val < win0_3.index _ (1 : Fin 2) * 128 + 128
    rw [e7]; omega

/-- The result array after the run. -/
theorem final (c : Dev nD) : (dats m 0 c).arrAt 3 cfg0.N
    = Cert.GcnLayer.propagate (V m c main_arg0) (V m c main_arg1) (V m c main_arg2) :=
  (dats m 0 c).arrAt_eq_of_cover 3 _ (fun t _ => flushed_eq m c t) cover

/-- Every weakly fair execution of the kernel ends with the result array at the layer's value and the arguments as
    launched. -/
theorem run : θ_run defs (onTc (τ := τ) (main (F := Ideal))) ⟨m, fun _ => 0, ρ⟩ fun r => ∀ c : Dev nD,
      r.2.mem ((c : Thread nD τ).loc main_v0)
        = Cert.GcnLayer.propagate (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.LayerValue

end
-- ==== Proof.lean ====
/-
  A dense graph-convolution layer, `out = A · X · W` with `A` [10000, 10000], `X` [10000, 128], `W` [128, 128].

  The kernel applies the weights first: at its first grid point it forms `X · W` once and keeps it (narrowed to bf16,
  which over the extended reals changes nothing), and at each of its 25 points it multiplies 400 rows of `A` by the kept
  product, so its result is `∑ k, A r k · (∑ l, X k l · W l c)`. The reference aggregates first:
  `∑ l, (∑ k, A r k · X k l) · W l c`. Over the extended reals a product distributes over a sum only where no infinity
  is among the terms; the precondition makes every input entry a real number, and there both are the double sum
  `∑ k l, A r k · X k l · W l c`.

  The three programs terminate with their arguments unchanged (the two kernel programs by the generated frames, the
  reference by its run); the idealization rewrote nothing, so there is nothing to preserve.
-/
import proofs.«101389_g52682068853352_cont_sun_m_837_6_alg».proof.Defs
import proofs.«101389_g52682068853352_cont_sun_m_837_6_alg».proof.Proof.Gen.Kernel
import proofs.«101389_g52682068853352_cont_sun_m_837_6_alg».proof.Proof.Gen.Kernel.Skeleton
import proofs.«101389_g52682068853352_cont_sun_m_837_6_alg».proof.Proof.Gen.Kernel.Launch
import proofs.«101389_g52682068853352_cont_sun_m_837_6_alg».proof.Proof.Gen.Kernel.Points
import proofs.«101389_g52682068853352_cont_sun_m_837_6_alg».proof.Proof.Gen.Kernel.Frame
import proofs.«101389_g52682068853352_cont_sun_m_837_6_alg».proof.Proof.Gen.KernelIdeal
import proofs.«101389_g52682068853352_cont_sun_m_837_6_alg».proof.Proof.Gen.KernelIdeal.Skeleton
import proofs.«101389_g52682068853352_cont_sun_m_837_6_alg».proof.Proof.Gen.KernelIdeal.Launch
import proofs.«101389_g52682068853352_cont_sun_m_837_6_alg».proof.Proof.Gen.KernelIdeal.Points
import proofs.«101389_g52682068853352_cont_sun_m_837_6_alg».proof.Proof.Gen.KernelIdeal.Frame
import proofs.«101389_g52682068853352_cont_sun_m_837_6_alg».proof.Proof.Gen.ReferenceIdeal
import proofs.«101389_g52682068853352_cont_sun_m_837_6_alg».proof.Proof.Gen.Pre_finite_inputs
import proofs.«101389_g52682068853352_cont_sun_m_837_6_alg».proof.Proof.Gen.KernelIdeal.Value
import proofs.«101389_g52682068853352_cont_sun_m_837_6_alg».proof.Proof.Gen.ReferenceIdeal.Run
import proofs.«101389_g52682068853352_cont_sun_m_837_6_alg».proof.Proof.Gen.ReferenceIdeal.Read
import proofs.«101389_g52682068853352_cont_sun_m_837_6_alg».proof.Proof.GcnLayer
import proofs.«101389_g52682068853352_cont_sun_m_837_6_alg».proof.Proof.FiniteInputs
import proofs.«101389_g52682068853352_cont_sun_m_837_6_alg».proof.Proof.ReferenceLayer
import proofs.«101389_g52682068853352_cont_sun_m_837_6_alg».proof.Proof.KernelLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's value: the kernel with the transform-first reading, the reference with the
    aggregate-first reading, one function where the inputs are real numbers. -/
theorem algebraic : Cert.algebraic_KernelIdeal_ReferenceIdeal := by
  intro m ρ m' ρ' hpre hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.LayerValue.result_eq,
    (hagree c).1, (hagree c).2.1, (hagree c).2.2]
  obtain ⟨hA, hX, hW⟩ := Cert.Pre_finite_inputs.Finite.all_real _ _ _ (hpre c)
  exact (Cert.GcnLayer.propagate_eq_aggregateThenTransform _ _ _ hA hX hW).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
